-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2048x64 : Shape := ⟨2, ![2048, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S100000x64 .f32) (main_arg1 : FVec F S2048x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S100000x64 : Shape := ⟨2, ![100000, 64]⟩
abbrev S2048x64 : Shape := ⟨2, ![2048, 64]⟩
abbrev S100000x2048 : Shape := ⟨2, ![100000, 2048]⟩
abbrev S1000x64 : Shape := ⟨2, ![1000, 64]⟩
abbrev S1024x64 : Shape := ⟨2, ![1024, 64]⟩
abbrev S1000x1024 : Shape := ⟨2, ![1000, 1024]⟩
abbrev S1000 : Shape := ⟨1, ![1000]⟩
abbrev S1000x1 : Shape := ⟨2, ![1000, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2048x64, .f32⟩
  | .hbm, ⟨2, _⟩ => ⟨S100000x2048, .f32⟩
  | .local _ .vmem, ⟨0, _⟩ => ⟨S1000x64, .f32⟩
  | .local _ .vmem, ⟨1, _⟩ => ⟨S1000x64, .f32⟩
  | .local _ .vmem, ⟨2, _⟩ => ⟨S1024x64, .f32⟩
  | .local _ .vmem, ⟨3, _⟩ => ⟨S1024x64, .f32⟩
  | .local _ .vmem, ⟨4, _⟩ => ⟨S1000x1024, .f32⟩
  | .local _ .vmem, ⟨5, _⟩ => ⟨S1000x1024, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![100, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1000x64_S1000x64_0_0 : ∀ a, (![0, 0] : Fin 2 → Nat) a + S1000x64.size a ≤ S1000x64.size a
  h_S1000x64 : 0 < S1000x64.numel
  inb_S1024x64_S1024x64_0_0 : ∀ a, (![0, 0] : Fin 2 → Nat) a + S1024x64.size a ≤ S1024x64.size a
  h_S1024x64 : 0 < S1024x64.numel
  reduces_S1000x64_S1000 : S1000x64.Reduces [1] S1000
  shapeCasts_S1000_S1000x1 : S1000.ShapeCasts S1000x1
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1000x1_S1000x1024 : S1000x1.Broadcasts S1000x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  dot_S1000x64_S1024x64_S1000x1024_1_1_0_0_n_n_wf : DotDims.WF S1000x64 S1024x64 S1000x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S100000x64.size a
  hwx0_0 : ∀ i : grid0.Coords, EltTy.bits .f32 = 32 ∨ (Rect.block (s := S100000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S2048x64.size a
  hwx0_1 : ∀ i : grid0.Coords, EltTy.bits .f32 = 32 ∨ (Rect.block (s := S2048x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S100000x2048.size a
  hwx0_2 : ∀ i : grid0.Coords, EltTy.bits .f32 = 32 ∨ (Rect.block (s := S100000x2048) S1000x1024.size (cc0_transform_2 i) (hinb0_2 i)).WholeWords (EltTy.packing .f32)

variable [Facts₀]

def dot_S1000x64_S1024x64_S1000x1024_1_1_0_0_n_n : DotDims S1000x64 S1024x64 S1000x1024 where
  lhsContracting := [1]
  rhsContracting := [1]
  lhsNonContracting := [0]
  rhsNonContracting := [0]
  lhsBatch := []
  rhsBatch := []
  wf := dot_S1000x64_S1024x64_S1000x1024_1_1_0_0_n_n_wf

abbrev win0_0 : Pipeline.Window sig grid0 :=
  Pipeline.Window.ofSpec (Memref.whole main_arg0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S2048x64 : Shape := ⟨2, ![2048, 64]⟩
abbrev S_ : Shape := ⟨0, ![]⟩
abbrev S100000 : Shape := ⟨1, ![100000]⟩
abbrev S100000x1 : Shape := ⟨2, ![100000, 1]⟩
abbrev S2048 : Shape := ⟨1, ![2048]⟩
abbrev S100000x2048 : Shape := ⟨2, ![100000, 2048]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2048x64, .f32⟩
  | .hbm, ⟨2, _⟩ => ⟨S100000x64, .f32⟩
  | .hbm, ⟨3, _⟩ => ⟨S_, .f32⟩
  | .hbm, ⟨4, _⟩ => ⟨S100000, .f32⟩
  | .hbm, ⟨5, _⟩ => ⟨S100000x1, .f32⟩
  | .hbm, ⟨6, _⟩ => ⟨S2048x64, .f32⟩
  | .hbm, ⟨7, _⟩ => ⟨S_, .f32⟩
  | .hbm, ⟨8, _⟩ => ⟨S2048, .f32⟩
  | .hbm, ⟨9, _⟩ => ⟨S100000x2048, .f32⟩
  | .hbm, ⟨10, _⟩ => ⟨S1x2048, .f32⟩
  | .hbm, ⟨11, _⟩ => ⟨S100000x2048, .f32⟩
  | .hbm, ⟨12, _⟩ => ⟨S100000x2048, .f32⟩
  | .hbm, ⟨13, _⟩ => ⟨S100000x2048, .f32⟩
  | .hbm, ⟨14, _⟩ => ⟨S_, .f32⟩
  | .hbm, ⟨15, _⟩ => ⟨S100000x2048, .f32⟩
  | .hbm, ⟨16, _⟩ => ⟨S100000x2048, .f32⟩
  | .hbm, ⟨17, _⟩ => ⟨S100000x2048, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S100000x64_S100000_d1 : S100000x64.ReducesTo [1] S100000
  h_S_ : 0 < S_.numel
  bcast_S100000_S100000x1_0 : S100000.BroadcastsInDim S100000x1 (![0] : Fin 1 → Fin S100000x1.rank)
  reducesTo_S2048x64_S2048_d1 : S2048x64.ReducesTo [1] S2048
  bcast_S2048_S1x2048_1 : S2048.BroadcastsInDim S1x2048 (![1] : Fin 1 → Fin S1x2048.rank)
  bcast_S100000x1_S100000x2048_0_1 : S100000x1.BroadcastsInDim S100000x2048 (![0, 1] : Fin 2 → Fin S100000x2048.rank)
  bcast_S1x2048_S100000x2048_0_1 : S1x2048.BroadcastsInDim S100000x2048 (![0, 1] : Fin 2 → Fin S100000x2048.rank)
  bcast_S_S100000x2048 : S_.BroadcastsInDim S100000x2048 (![] : Fin 0 → Fin S100000x2048.rank)
  dot_S100000x64_S2048x64_S100000x2048_1_1_0_0_n_n_wf : DotDims.WF S100000x64 S2048x64 S100000x2048 [1] [1] [0] [0] [] []

variable [Facts₀]

def dot_S100000x64_S2048x64_S100000x2048_1_1_0_0_n_n : DotDims S100000x64 S2048x64 S100000x2048 where
  lhsContracting := [1]
  rhsContracting := [1]
  lhsNonContracting := [0]
  rhsNonContracting := [0]
  lhsBatch := []
  rhsBatch := []
  wf := dot_S100000x64_S2048x64_S100000x2048_1_1_0_0_n_n_wf

class Facts : Prop extends Facts₀ where

variable [Facts]
-- ==== Proof.SqDist.lean ====
/-
  The squared Euclidean distance between every row of `a : [100000, 64]` and every row of `b : [2048, 64]`, in the
  expanded form `‖a_i‖² + ‖b_j‖² − 2 ⟨a_i, b_j⟩` that both programs compute, as ONE function of the two argument
  arrays on the extended reals:

      sqDist a b (i, j) = (∑ k, a (i, k) · a (i, k) + ∑ k, b (j, k) · b (j, k)) − 2 · ∑ k, a (i, k) · b (j, k).

  The grouping is the programs' own — the two squared norms are added first and the doubled inner product is subtracted
  from their sum — so that no law of the extended reals beyond the commutative monoid of sums is needed to meet either
  side: the kernel computes this on a 1000 × 1024 tile of the result from a 1000-row tile of `a` and a 1024-row tile
  of `b`, the reference on the whole arrays. The factor `2` stays the f32 word `0x40000000` read at the ideal
  values; both programs carry that same word, so its value is never needed.
-/
import Idealize.ShloMosaic.PureOps.Ideal
import Idealize.ShloMosaic.Lib.ValueIdx

noncomputable section

open scoped BigOperators

namespace Cert.SqDist

open Idealize.ShloMosaic Idealize.ShloMosaic.ValueIdx

/-- The squared norm of row `r` of an array with 64 columns: the sum over the columns of the entry times itself. -/
def rowSq {n : Nat} (x : (⟨2, ![n, 64]⟩ : Shape).Idx → EReal) (r : Fin n) : EReal :=
  ∑ k : Fin 64, x (ix2 r k) * x (ix2 r k)

/-- The inner product of row `r` of `x` with row `s` of `y`, both with 64 columns. -/
def rowDot {n n' : Nat} (x : (⟨2, ![n, 64]⟩ : Shape).Idx → EReal) (y : (⟨2, ![n', 64]⟩ : Shape).Idx → EReal)
    (r : Fin n) (s : Fin n') : EReal :=
  ∑ k : Fin 64, x (ix2 r k) * y (ix2 s k)

/-- One entry of the expanded squared distance, from the two rows' squared norms and their inner product. -/
def entry {n n' : Nat} (x : (⟨2, ![n, 64]⟩ : Shape).Idx → EReal) (y : (⟨2, ![n', 64]⟩ : Shape).Idx → EReal)
    (r : Fin n) (s : Fin n') : EReal :=
  (rowSq x r + rowSq y s) - Ideal.ofBits .f32 0x40000000#32 * rowDot x y r s

/-- THE RESULT ARRAY: entry `(i, j)` is the expanded squared distance of row `i` of `a` and row `j` of `b`. -/
def sqDist (a : (⟨2, ![100000, 64]⟩ : Shape).Idx → EReal) (b : (⟨2, ![2048, 64]⟩ : Shape).Idx → EReal) :
    (⟨2, ![100000, 2048]⟩ : Shape).Idx → EReal :=
  fun i => entry a b (i 0 : Fin 100000) (i 1 : Fin 2048)

/-- The same function on one tile: entry `(p, q)` of a 1000 × 1024 tile from a 1000-row tile `x` and a 1024-row tile `y`. -/
def tile (x : (⟨2, ![1000, 64]⟩ : Shape).Idx → EReal) (y : (⟨2, ![1024, 64]⟩ : Shape).Idx → EReal) :
    (⟨2, ![1000, 1024]⟩ : Shape).Idx → EReal :=
  fun j => entry x y (j 0 : Fin 1000) (j 1 : Fin 1024)

/-- An entry depends on its two rows only: if row `p` of the tile `x` is row `r` of `a` and row `q` of the tile `y` is
    row `s` of `b`, the tile's entry `(p, q)` is the array's entry `(r, s)`. -/
theorem entry_congr {n n' l l' : Nat} (x : (⟨2, ![n, 64]⟩ : Shape).Idx → EReal) (y : (⟨2, ![n', 64]⟩ : Shape).Idx → EReal)
    (a : (⟨2, ![l, 64]⟩ : Shape).Idx → EReal) (b : (⟨2, ![l', 64]⟩ : Shape).Idx → EReal)
    (p : Fin n) (q : Fin n') (r : Fin l) (s : Fin l')
    (hx : ∀ k : Fin 64, x (ix2 p k) = a (ix2 r k)) (hy : ∀ k : Fin 64, y (ix2 q k) = b (ix2 s k)) :
    entry x y p q = entry a b r s := by
  unfold entry rowSq rowDot
  simp only [hx, hy]

end Cert.SqDist

end
-- ==== Proof.LibKeepdims.lean ====
/-
  Layout operations of a KEEPDIMS COLUMN read at an index given by coordinates, and a lane sum of a matrix read at a row.

  A row reduction with `keepdims=True` leaves a vector `[a]` that the program re-lays as a column `[a, 1]`, then either
  broadcasts along the new unit axis to `[a, b]` or transposes to a row `[1, a]`. Read at an index written by its
  coordinates, each of these is the operand at the evident index:

    • `shapeCast_a_a1_apply`    — `[a] → [a, 1]` at `(i, u)` is the vector at `i` (the unit coordinate `u` is `0`; the
                                  row-major positions `i` and `i · 1 + u` agree);
    • `broadcastTo_a1_ab_apply` — `[a, 1] → [a, b]` at `(p, c)` is the column at `(p, 0)` (the unit axis reads `0`, the
                                  other axis its own coordinate);
    • `multiReduction_add_rows_apply` — at the ideal values the `add` reduction of a matrix `[n, K]` over its axis 1,
                                  from the zero word, read at row `r`, is the sum over the `K` columns of the entries
                                  of row `r`.

  The transposition `[a, 1] → [1, a]` is the library's matrix transposition at a unit extent and the row broadcast
  `[1, b] → [a, b]` is the library's; they are not repeated here.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`: the unit coordinate `u` is `0`,
    so the two row-major positions are both `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the `add` reduction of a matrix `[n, K]` over its axis 1, started from the zero word, read at
    row `r`, is the sum over the `K` columns of row `r`'s entries. (The side proofs are taken as the printed operation
    carries them: the format's and the accumulator's.) -/
theorem multiReduction_add_rows_apply {n K : ℕ} (src : FVec Ideal ⟨2, ![n, K]⟩ .f32)
    (h : (⟨2, ![n, K]⟩ : Shape).Reduces [1] ⟨1, ![n]⟩) (hφ : FKind.Formats .f32)
    (hacc : (0x00000000#32 : BitVec (FTy.bits .f32)) = FKind.add.neutral .f32 hφ) (r : Fin n) :
    multiReduction .add [1] ⟨1, ![n]⟩ src 0x00000000#32 h hφ hacc (ix1 r) = ∑ k : Fin K, src (ix2 r k) := by
  refine (Ideal.multiReduction_add_single src 0x00000000#32 h hφ hacc (ix1 r)).trans ?_
  refine Finset.sum_congr rfl fun k _ => ?_
  exact congrArg src (funext fun ax => Fin.ext (by match ax with | ⟨0, _⟩ => rfl | ⟨1, _⟩ => rfl))

end Cert.LibKeepdims

end
-- ==== Proof.TileValue.lean ====
/-
  The kernel body's value on one tile, read entry by entry: from a 1000-row tile `x` of `a` and a 1024-row tile `y` of
  `b` the body stores, at `(p, q)`, the expanded squared distance `Cert.SqDist.entry x y p q` of row `p` of `x` and row
  `q` of `y`.

  The body squares `x` elementwise, sums each row from the zero word (a vector over the 1000 rows), re-lays it as a column
  and broadcasts it along the 1024 columns: at `(p, q)` that is `‖x_p‖²` (`rowNorm_apply`). It does the same for `y`,
  transposes the column to a row and broadcasts it along the 1000 rows: at `(p, q)` that is `‖y_q‖²` (`colNorm_apply`).
  It narrows both tiles to bf16 — at the ideal values a change of format is the identity — and contracts them over their
  common 64-column axis into the zero accumulator: at `(p, q)` that is `⟨x_p, y_q⟩`, the contraction's one-axis index
  re-indexed by its coordinate (`cross_apply`). The payload is the sum of the first two minus the word `2.0` times the
  third (`pay_apply`).
-/
import proofs.«155545_j36129264894473_1_alg».proof.Proof.Gen.KernelIdeal.Skeleton
import proofs.«155545_j36129264894473_1_alg».proof.Proof.SqDist
import proofs.«155545_j36129264894473_1_alg».proof.Proof.LibKeepdims
import Idealize.ShloMosaic.Lib.ValueLayout
import Idealize.ShloMosaic.PureOps.Ideal.Laws

noncomputable section

open scoped BigOperators

namespace Cert.KernelIdeal.TileValue

open Cert.KernelIdeal Cert.KernelIdeal.Gen
open Idealize.ShloMosaic Idealize.ShloMosaic.ValueIdx Cert.SqDist Cert.LibKeepdims

/-- The squared row norms of the 1000-row tile, re-laid as a column and broadcast along the columns, read at `(p, q)`:
    the squared norm of row `p`. -/
theorem rowNorm_apply (x : FVec Ideal S1000x64 .f32) (h1 : S1000x64.Reduces [1] S1000) (hφ : FKind.Formats .f32)
    (hacc : (0x00000000#32 : BitVec (FTy.bits .f32)) = FKind.add.neutral .f32 hφ) (h2 : S1000.ShapeCasts S1000x1)
    (h3 : S1000x1.Broadcasts S1000x1024) (p : Fin 1000) (q : Fin 1024) :
    broadcastTo S1000x1024 (shapeCast S1000x1 (multiReduction .add [1] S1000 (mulf x x) 0x00000000#32 h1 hφ hacc) h2) h3 (ix2 p q)
      = rowSq x p := by
  refine (broadcastTo_a1_ab_apply _ h3 p q).trans ?_
  refine (shapeCast_a_a1_apply _ h2 p 0).trans ?_
  exact multiReduction_add_rows_apply (mulf x x) h1 hφ hacc p

/-- The squared row norms of the 1024-row tile, re-laid as a column, transposed to a row and broadcast along the rows,
    read at `(p, q)`: the squared norm of row `q`. -/
theorem colNorm_apply (y : FVec Ideal S1024x64 .f32) (h1 : S1024x64.Reduces [1] S1024) (hφ : FKind.Formats .f32)
    (hacc : (0x00000000#32 : BitVec (FTy.bits .f32)) = FKind.add.neutral .f32 hφ) (h2 : S1024.ShapeCasts S1024x1)
    (h3 : S1024x1.Transposes [1, 0] S1x1024) (h4 : S1x1024.Broadcasts S1000x1024) (p : Fin 1000) (q : Fin 1024) :
    broadcastTo S1000x1024 (transpose S1x1024 [1, 0]
        (shapeCast S1024x1 (multiReduction .add [1] S1024 (mulf y y) 0x00000000#32 h1 hφ hacc) h2) h3) h4 (ix2 p q)
      = rowSq y q := by
  refine (broadcastTo_1b_ab_apply _ h4 p q).trans ?_
  refine (transpose_ix2_apply _ h3 (0 : Fin 1) q).trans ?_
  refine (shapeCast_a_a1_apply _ h2 q 0).trans ?_
  exact multiReduction_add_rows_apply (mulf y y) h1 hφ hacc q

/-! The contraction's operand indices at an output index and a contraction index, axis by axis: the left operand's row is
    the output's row and the right operand's row the output's column (the free axes), and both operands' column is the
    contraction index's one coordinate. -/

theorem lhs_cross_0 (i : S1000x1024.Idx) (c : dot_S1000x64_S1024x64_S1000x1024_1_1_0_0_n_n.contr.Idx) :
    (dot_S1000x64_S1024x64_S1000x1024_1_1_0_0_n_n.lhsIdx i c 0).val = (i 0).val := by
  unfold DotDims.lhsIdx
  rw [dif_neg (show ¬(0 : Fin S1000x64.rank) ∈ dot_S1000x64_S1024x64_S1000x1024_1_1_0_0_n_n.lhsBatch by decide), dif_pos (show (0 : Fin S1000x64.rank) ∈ dot_S1000x64_S1024x64_S1000x1024_1_1_0_0_n_n.lhsNonContracting by decide)]
  rfl
theorem lhs_cross_1 (i : S1000x1024.Idx) (c : dot_S1000x64_S1024x64_S1000x1024_1_1_0_0_n_n.contr.Idx) :
    (dot_S1000x64_S1024x64_S1000x1024_1_1_0_0_n_n.lhsIdx i c 1).val = (c ⟨0, by decide⟩).val :=
  dot_S1000x64_S1024x64_S1000x1024_1_1_0_0_n_n.lhsIdx_val_of_single rfl i c
theorem rhs_cross_0 (i : S1000x1024.Idx) (c : dot_S1000x64_S1024x64_S1000x1024_1_1_0_0_n_n.contr.Idx) :
    (dot_S1000x64_S1024x64_S1000x1024_1_1_0_0_n_n.rhsIdx i c 0).val = (i 1).val := by
  unfold DotDims.rhsIdx
  rw [dif_neg (show ¬(0 : Fin S1024x64.rank) ∈ dot_S1000x64_S1024x64_S1000x1024_1_1_0_0_n_n.rhsBatch by decide), dif_pos (show (0 : Fin S1024x64.rank) ∈ dot_S1000x64_S1024x64_S1000x1024_1_1_0_0_n_n.rhsNonContracting by decide)]
  rfl
theorem rhs_cross_1 (i : S1000x1024.Idx) (c : dot_S1000x64_S1024x64_S1000x1024_1_1_0_0_n_n.contr.Idx) :
    (dot_S1000x64_S1024x64_S1000x1024_1_1_0_0_n_n.rhsIdx i c 1).val = (c ⟨0, by decide⟩).val :=
  dot_S1000x64_S1024x64_S1000x1024_1_1_0_0_n_n.rhsIdx_val_of_single rfl i c

/-- The two tiles narrowed to bf16 and contracted over their columns into the zero accumulator, read at `(p, q)`: the
    inner product of row `p` of `x` and row `q` of `y`. -/
theorem cross_apply (x : FVec Ideal S1000x64 .f32) (y : FVec Ideal S1024x64 .f32) (hb : FTy.bits .bf16 < FTy.bits .f32)
    (p : Fin 1000) (q : Fin 1024) :
    matmul dot_S1000x64_S1024x64_S1000x1024_1_1_0_0_n_n none (truncf .bf16 x hb) (truncf .bf16 y hb) (constant S1000x1024 .f32 0x00000000#32) (ix2 p q)
      = rowDot x y p q := by
  simp only [matmul]
  rw [Ideal.matmul_constant_zero_apply, ← Equiv.sum_comp (contrEquiv1 dot_S1000x64_S1024x64_S1000x1024_1_1_0_0_n_n 64 rfl rfl).symm]
  unfold rowDot
  refine Finset.sum_congr rfl fun k _ => ?_
  have hk := contrEquiv1_symm_val dot_S1000x64_S1024x64_S1000x1024_1_1_0_0_n_n 64 rfl rfl k
  have el : dot_S1000x64_S1024x64_S1000x1024_1_1_0_0_n_n.lhsIdx (ix2 p q) ((contrEquiv1 dot_S1000x64_S1024x64_S1000x1024_1_1_0_0_n_n 64 rfl rfl).symm k) = ix2 p k := funext fun ax => Fin.ext (by
    match ax with
    | ⟨0, _⟩ => exact lhs_cross_0 _ _
    | ⟨1, _⟩ => exact (lhs_cross_1 _ _).trans hk)
  have er : dot_S1000x64_S1024x64_S1000x1024_1_1_0_0_n_n.rhsIdx (ix2 p q) ((contrEquiv1 dot_S1000x64_S1024x64_S1000x1024_1_1_0_0_n_n 64 rfl rfl).symm k) = ix2 q k := funext fun ax => Fin.ext (by
    match ax with
    | ⟨0, _⟩ => exact rhs_cross_0 _ _
    | ⟨1, _⟩ => exact (rhs_cross_1 _ _).trans hk)
  rw [el, er]
  rfl

/-- THE PAYLOAD AT AN ENTRY: what the body stores at `(p, q)` of the tile is the expanded squared distance of row `p` of
    `x` and row `q` of `y`. -/
theorem pay_apply (x : Vec Ideal S1000x64 .f32) (y : Vec Ideal S1024x64 .f32) (p : Fin 1000) (q : Fin 1024) :
    k0_pay1 (F := Ideal) x y (ix2 p q) = entry x y p q := by
  unfold k0_pay1 entry
  exact congrArg₂ (· - ·)
    (congrArg₂ (· + ·) (rowNorm_apply x _ _ _ _ _ p q) (colNorm_apply y _ _ _ _ _ _ p q))
    (congrArg (Ideal.ofBits .f32 0x40000000#32 * ·) (cross_apply x y _ p q))

end Cert.KernelIdeal.TileValue

end
-- ==== Proof.ArrayValue.lean ====
/-
  From tiles to the whole array: after the kernel's run the result array is `Cert.SqDist.sqDist` of the two argument
  arrays.

  The grid has 100 × 2 points. At a point the pipeline stages row tile `I` of `a` (rows `1000·I … 1000·I + 999`), row tile
  `J` of `b` (rows `1024·J … 1024·J + 1023`) and writes back tile `(I, J)` of the result, where `(I, J)` is the output
  window's block index at that point: the three index maps move together (`tiles_move_together`, decided over the 200
  points). So row `p` of the staged tile of `a` is row `1000·I + p` of `a`, row `q` of the staged tile of `b` is row
  `1024·J + q` of `b`, and — an entry of the squared distance depending on its two rows only — what the point writes back
  is the restriction of `sqDist a b` to the output tile (`flushed_eq`). Every block index `(I, J)`, `I < 100`, `J < 2`, is
  some point's (`every_tile_visited`), so the tiles cover the array (`cover`): entry `(i, j)` lies in tile
  `(i / 1000, j / 1024)`. Hence the array after the run is `sqDist a b` everywhere (`final`), and the kernel's run ends
  with it there and the arguments unchanged (`run`).
-/
import proofs.«155545_j36129264894473_1_alg».proof.Proof.Gen.KernelIdeal.Value
import proofs.«155545_j36129264894473_1_alg».proof.Proof.TileValue

noncomputable section

open scoped BigOperators

namespace Cert.KernelIdeal.ArrayValue

open Cert.KernelIdeal Cert.KernelIdeal.Gen Cert.KernelIdeal.Value Cert.KernelIdeal.TileValue
open Idealize.ShloMosaic Idealize.ShloMosaic.TcCoe Idealize.SL.Sem Idealize.ShloMosaic.ValueIdx Cert.SqDist
open Idealize.ShloMosaic.Pipeline (Dat)

variable (m : (ℓ : Loc nD τ sig) → Buf (Elt Ideal) ℓ) (ρ : Dev nD → PrngReg)

/-- Every access of the body starts at the staged tile's origin. -/
theorem origin : (![0, 0] : Fin 2 → Nat) = fun _ => 0 := funext fun a => by fin_cases a <;> rfl

/-- The two argument arrays as the region finds them, and the two staged tiles at a point, at their literal types. -/
abbrev aArr (c : Dev nD) : Vec Ideal S100000x64 .f32 := V m c main_arg0
abbrev bArr (c : Dev nD) : Vec Ideal S2048x64 .f32 := V m c main_arg1
abbrev aTile (c : Dev nD) (t : Fin cfg0.N) : Vec Ideal S1000x64 .f32 := iblk m c 0 t
abbrev bTile (c : Dev nD) (t : Fin cfg0.N) : Vec Ideal S1024x64 .f32 := iblk m c 1 t

/-- THE INDEX MAPS MOVE TOGETHER, decided over the grid: the tile of `a` is the output tile's row block and the tile of
    `b` its column block, both at column block `0`; the output's block indices stay below 100 and 2. -/
theorem tiles_move_together : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 99 ∧ win0_2.index t (1 : Fin 2) ≤ 1 :=
  (by decide +kernel : ∀ t : Fin grid0.N, _)

/-- Every output tile is some point's. -/
theorem every_tile_visited : ∀ (I : Fin 100) (J : Fin 2), ∃ t : Fin cfg0.N, win0_2.index t = ![I.val, J.val] :=
  (by decide +kernel : ∀ (I : Fin 100) (J : Fin 2), ∃ t : Fin grid0.N, win0_2.index t = ![I.val, J.val])

/-- Row `p` of the staged tile of `a` at point `t` is row `1000·I + p` of `a`, `I` the output tile's row block. -/
theorem aTile_apply (c : Dev nD) (t : Fin cfg0.N) (p : Fin 1000) (k : Fin 64) (r : Fin 100000)
    (hr : r.val = win0_2.index t (0 : Fin 2) * 1000 + p.val) : aTile m c t (ix2 p k) = aArr m c (ix2 r k) := by
  obtain ⟨e0, e1, -, -, -, -⟩ := tiles_move_together t
  show V m c main_arg0 (((cfg0.win 0).blk t).view.emb (ix2 p k)) = V m c main_arg0 (ix2 r k)
  refine congrArg (V m c main_arg0) (funext fun ax => Fin.ext ?_)
  match ax with
  | ⟨0, _⟩ => show win0_0.index t (0 : Fin 2) * 1000 + 1 * p.val = r.val; omega
  | ⟨1, _⟩ => show win0_0.index t (1 : Fin 2) * 64 + 1 * k.val = k.val; omega

/-- Row `q` of the staged tile of `b` at point `t` is row `1024·J + q` of `b`, `J` the output tile's column block. -/
theorem bTile_apply (c : Dev nD) (t : Fin cfg0.N) (q : Fin 1024) (k : Fin 64) (s : Fin 2048)
    (hs : s.val = win0_2.index t (1 : Fin 2) * 1024 + q.val) : bTile m c t (ix2 q k) = bArr m c (ix2 s k) := by
  obtain ⟨-, -, e2, e3, -, -⟩ := tiles_move_together t
  show V m c main_arg1 (((cfg0.win 1).blk t).view.emb (ix2 q k)) = V m c main_arg1 (ix2 s k)
  refine congrArg (V m c main_arg1) (funext fun ax => Fin.ext ?_)
  match ax with
  | ⟨0, _⟩ => show win0_1.index t (0 : Fin 2) * 1024 + 1 * q.val = s.val; omega
  | ⟨1, _⟩ => show win0_1.index t (1 : Fin 2) * 64 + 1 * k.val = k.val; omega

/-- WHAT POINT `t` WRITES BACK is tile `t` of `sqDist` of the argument arrays as the region finds them. -/
theorem flushed_eq (c : Dev nD) (t : Fin cfg0.N) :
    (dats m 0 c).flushed 2 t = ((cfg0.win 2).blk t).view.read (Elt Ideal) (sqDist (aArr m c) (bArr m c)) := by
  rw [Value.flushed2]
  unfold out0_2
  rw [View.canon_unit_zero origin]
  simp only [View.ld_unit_zero (S := S1000x64) origin, View.ld_unit_zero (S := S1024x64) origin]
  funext j
  obtain ⟨p, q, rfl⟩ : ∃ (p : Fin 1000) (q : Fin 1024), j = ix2 p q := ⟨j 0, j 1, eq_ix2 j⟩
  show k0_pay1 (F := Ideal) (aTile m c t) (bTile m c t) (ix2 p q)
    = entry (aArr m c) (bArr m c) ((((cfg0.win 2).blk t).view.emb (ix2 p q)) 0 : Fin 100000) ((((cfg0.win 2).blk t).view.emb (ix2 p q)) 1 : Fin 2048)
  refine (pay_apply (aTile m c t) (bTile m c t) p q).trans ?_
  refine entry_congr (aTile m c t) (bTile m c t) (aArr m c) (bArr m c) p q _ _ (fun k => ?_) (fun k => ?_)
  · refine aTile_apply m c t p k _ ?_
    show win0_2.index t (0 : Fin 2) * 1000 + 1 * p.val = _
    omega
  · refine bTile_apply m c t q k _ ?_
    show win0_2.index t (1 : Fin 2) * 1024 + 1 * q.val = _
    omega

/-- An index of the array is in point `t`'s tile iff each coordinate is in the tile's range on its axis. -/
theorem mem_tile (t : Fin cfg0.N) (i : S100000x2048.Idx) :
    i ∈ ((cfg0.win 2).blk t).view.set ↔ ∀ a : Fin 2, win0_2.index t a * S1000x1024.size a ≤ (i a).val ∧ (i a).val < win0_2.index t a * S1000x1024.size a + S1000x1024.size a := by
  show i ∈ ((View.whole main_v0).slice (win0_2.rect t)).set ↔ _
  rw [View.set_slice_whole, Rect.mem_set_unit]
  exact Iff.rfl

/-- THE TILES COVER THE ARRAY: entry `(i, j)` is in the tile of the point whose output block index is
    `(i / 1000, j / 1024)`, and every point writes back. -/
theorem cover (i : S100000x2048.Idx) :
    ∃ t : Fin cfg0.N, (cfg0.win 2).flush t = true ∧ i ∈ ((cfg0.win 2).blk t).view.set := by
  have hi0 : (i 0).val < 100000 := (i 0).isLt
  have hi1 : (i 1).val < 2048 := (i 1).isLt
  obtain ⟨t, ht⟩ := every_tile_visited ⟨(i 0).val / 1000, by omega⟩ ⟨(i 1).val / 1024, by omega⟩
  have q0 : win0_2.index t (0 : Fin 2) = (i 0).val / 1000 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 1024 ≤ (i 1).val ∧ (i 1).val < win0_2.index t (1 : Fin 2) * 1024 + 1024; omega

/-- THE ARRAY after the run is `sqDist` of the argument arrays. -/
theorem final (c : Dev nD) :
    (dats m 0 c).arrAt 2 cfg0.N = sqDist (m ((c : Thread nD τ).loc main_arg0)) (m ((c : Thread nD τ).loc main_arg1)) :=
  (dats m 0 c).arrAt_eq_of_cover 2 (sqDist (aArr m c) (bArr m c)) (fun t _ => flushed_eq m c t) cover

/-- THE KERNEL'S RUN, read: every weakly fair execution ends with the result array at `sqDist` of the argument arrays and
    the arguments unchanged. -/
theorem run : θ_run defs (onTc (τ := τ) (main (F := Ideal))) ⟨m, fun _ => 0, ρ⟩ fun r => ∀ c : Dev nD,
      r.2.mem ((c : Thread nD τ).loc main_v0) = sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference's result, read index by index, is the expanded squared distance `Cert.SqDist.sqDist` of its two
  arguments.

  The reference squares `a` elementwise and sums each row from the zero word (`‖a_i‖²`, a vector over the 100000 rows),
  re-lays it as a column and broadcasts it along the 2048 columns; does the same for `b` (`‖b_j‖²`, re-laid as a row and
  broadcast along the 100000 rows); adds the two; contracts `a` and `b` over their common 64-column axis
  (`⟨a_i, b_j⟩`); multiplies by the word `2.0`; subtracts. Read at `(i, j)` through the generated one-operation-at-a-time
  lemmas, each broadcast reads its operand at the evident index, each row sum is the zero word's value `0` plus the sum
  over the 64 columns, and the contraction is the sum over the 64 columns of the products: the entry is
  `(‖a_i‖² + ‖b_j‖²) − 2 · ⟨a_i, b_j⟩` with the very grouping of `sqDist`. The only law used is `0 + x = x`.
-/
import proofs.«155545_j36129264894473_1_alg».proof.Proof.Gen.ReferenceIdeal.Read
import proofs.«155545_j36129264894473_1_alg».proof.Proof.SqDist

noncomputable section

open scoped BigOperators

namespace Cert.ReferenceIdeal.RefValue

open Cert.ReferenceIdeal Cert.ReferenceIdeal.Gen Cert.ReferenceIdeal.Read
open Idealize.ShloMosaic Idealize.ShloMosaic.ValueIdx Cert.SqDist

/-- The row of `a` that entry `(i, j)`'s squared norm sums over — reached through the broadcast of the column, the
    re-laying of the vector and the reduction's inserted coordinate — is row `i`, column by column. -/
theorem row_a (i : S100000x2048.Idx) (k : Fin 64) :
    idx_main_v1 (idx_main_v2 (idx_main_v7 i)) k = ix2 (i 0 : Fin 100000) k :=
  funext fun ax => Fin.ext (by match ax with | ⟨0, _⟩ => rfl | ⟨1, _⟩ => rfl)

/-- Likewise the row of `b` is row `j`. -/
theorem row_b (i : S100000x2048.Idx) (k : Fin 64) :
    idx_main_v4 (idx_main_v6 (idx_main_v8 i)) k = ix2 (i 1 : Fin 2048) k :=
  funext fun ax => Fin.ext (by match ax with | ⟨0, _⟩ => rfl | ⟨1, _⟩ => rfl)

/-- The contraction's left factor at `(i, j)` and column `k` is `a (i, k)`, -/
theorem dot_a (i : S100000x2048.Idx) (k : Fin 64) : lidx_main_v5 i k = ix2 (i 0 : Fin 100000) k :=
  funext fun ax => Fin.ext (by match ax with | ⟨0, _⟩ => rfl | ⟨1, _⟩ => rfl)

/-- and its right factor is `b (j, k)`. -/
theorem dot_b (i : S100000x2048.Idx) (k : Fin 64) : ridx_main_v5 i k = ix2 (i 1 : Fin 2048) k :=
  funext fun ax => Fin.ext (by match ax with | ⟨0, _⟩ => rfl | ⟨1, _⟩ => rfl)

/-- THE REFERENCE IS `sqDist`: its last stage, as a function of the two argument arrays, is the expanded squared
    distance, entry by entry. -/
theorem result_eq (a : (⟨S100000x64, .f32⟩ : BufTy).Contents (Elt Ideal)) (b : (⟨S2048x64, .f32⟩ : BufTy).Contents (Elt Ideal)) :
    val_main_v12 (F := Ideal) a b = sqDist a b := by
  funext i
  rw [val_main_v12_apply, val_main_v9_apply, val_main_v11_apply, val_main_v7_apply, val_main_v2_apply, val_main_v1_apply,
    val_main_v8_apply, val_main_v6_apply, val_main_v4_apply, val_main_v10_apply, val_main_v5_apply]
  simp only [val_main_v0_apply, val_main_v3_apply, val_main_cst_apply, val_main_cst_0_apply, val_main_cst_1_apply,
    row_a, row_b, dot_a, dot_b, Ideal.subf_def, Ideal.addf_def, Ideal.mulf_def, Ideal.ofBits_def, Ideal.ofBits_zero_f32,
    zero_add]
  rfl

end Cert.ReferenceIdeal.RefValue

end
-- ==== Proof.lean ====
/- The proof of `Cert.Claim`: the tiled pairwise squared-distance kernel against its whole-array reference.

   Both programs compute, for `a : [100000, 64]` and `b : [2048, 64]`, the array
   `d (i, j) = (‖a_i‖² + ‖b_j‖²) − 2 · ⟨a_i, b_j⟩` (Proof/SqDist.lean, `sqDist`). The reference does it on the whole arrays
   (Proof/RefValue.lean reads its operations at an index: two row sums from the zero word, two broadcasts, one
   contraction over the 64 columns, the word `2.0`). The kernel does it tile by tile on a 100 × 2 grid: at a point it
   stages a 1000-row tile of `a` and a 1024-row tile of `b`, computes the same three terms of those tiles — the inner
   product on operands narrowed to bf16, which at the ideal values is no change — and writes back one 1000 × 1024 tile of
   `d` (Proof/TileValue.lean: the body's value at an entry; Proof/ArrayValue.lean: a tile's rows are the arrays' rows, the
   tiles cover the array, so the array after the run is `sqDist a b`). An entry of `d` depends only on row `i` of `a` and
   row `j` of `b`, and the two programs group its three terms alike, so the two results agree entry by entry on the
   extended reals with no law beyond `0 + x = x` and the reindexing of a finite sum: finiteness of the inputs is not used.

   The three frames are the generated ones (the reference's is its generated run with the result dropped); the kernel's
   idealization is its own text read at the ideal values, no operation rewritten, so `preserves` is `True`. -/
import proofs.«155545_j36129264894473_1_alg».proof.Defs
import proofs.«155545_j36129264894473_1_alg».proof.Proof.Gen.Kernel
import proofs.«155545_j36129264894473_1_alg».proof.Proof.Gen.Kernel.Skeleton
import proofs.«155545_j36129264894473_1_alg».proof.Proof.Gen.Kernel.Launch
import proofs.«155545_j36129264894473_1_alg».proof.Proof.Gen.Kernel.Points
import proofs.«155545_j36129264894473_1_alg».proof.Proof.Gen.Kernel.Frame
import proofs.«155545_j36129264894473_1_alg».proof.Proof.Gen.KernelIdeal
import proofs.«155545_j36129264894473_1_alg».proof.Proof.Gen.KernelIdeal.Skeleton
import proofs.«155545_j36129264894473_1_alg».proof.Proof.Gen.KernelIdeal.Launch
import proofs.«155545_j36129264894473_1_alg».proof.Proof.Gen.KernelIdeal.Points
import proofs.«155545_j36129264894473_1_alg».proof.Proof.Gen.KernelIdeal.Frame
import proofs.«155545_j36129264894473_1_alg».proof.Proof.Gen.ReferenceIdeal
import proofs.«155545_j36129264894473_1_alg».proof.Proof.Gen.Pre_finite_inputs
import proofs.«155545_j36129264894473_1_alg».proof.Proof.Gen.KernelIdeal.Value
import proofs.«155545_j36129264894473_1_alg».proof.Proof.Gen.ReferenceIdeal.Run
import proofs.«155545_j36129264894473_1_alg».proof.Proof.Gen.ReferenceIdeal.Read
import proofs.«155545_j36129264894473_1_alg».proof.Proof.ArrayValue
import proofs.«155545_j36129264894473_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's idealization rewrites no operation: there is nothing to preserve. -/
theorem preserves : Cert.preserves_Kernel_KernelIdeal := trivial

/-- From memories agreeing on `a` and `b`, the kernel's result array ends at `sqDist a b` (the tiles, covering) and the
    reference's at its operations' term of `a` and `b`, which is `sqDist a b` entry by entry. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
